-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256 .f32) (main_arg5 : FVec F S1x256 .f32) (main_arg6 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1x256 .f32 := Host.absf main_arg5
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S262144x256 .f32) (main_arg1 : FVec F S256 .f32) (main_arg2 : FVec F S256 .f32) (main_arg3 : FVec F S256x256 .f32) (main_arg4 : FVec F S256 .f32) (main_arg5 : FVec F S1x256 .f32) (main_arg6 : FVec F S1 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S262144x256 : Shape := ⟨2, ![262144, 256]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x1 : Shape := ⟨2, ![1, 1]⟩
abbrev S262144x1 : Shape := ⟨2, ![262144, 1]⟩
abbrev S4096x256 : Shape := ⟨2, ![4096, 256]⟩
abbrev S4096x1 : Shape := ⟨2, ![4096, 1]⟩
abbrev S4096 : Shape := ⟨1, ![4096]⟩

abbrev nBuf : Space → Nat
  | .hbm => 14
  | .vmem => 10
  | .smem => 0
  | _ => 0

abbrev bufTy : (tb : Table) → Fin (tcTables nBuf tb) → BufTy
  | .hbm, ⟨0, _⟩ => ⟨S262144x256, .f32⟩
  | .hbm, ⟨1, _⟩ => ⟨S256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S1, .f32⟩
  | .hbm, ⟨7, _⟩ => ⟨S1x256, .f32⟩
  | .hbm, ⟨8, _⟩ => ⟨S1x256, .f32⟩
  | .hbm, ⟨9, _⟩ => ⟨S256x256, .f32⟩
  | .hbm, ⟨10, _⟩ => ⟨S256x256, .bf16⟩
  | .hbm, ⟨11, _⟩ => ⟨S1x256, .f32⟩
  | .hbm, ⟨12, _⟩ => ⟨S1x1, .f32⟩
  | .hbm, ⟨13, _⟩ => ⟨S262144x1, .f32⟩
  | .local _ .vmem, ⟨0, _⟩ => ⟨S4096x256, .f32⟩
  | .local _ .vmem, ⟨1, _⟩ => ⟨S4096x256, .f32⟩
  | .local _ .vmem, ⟨2, _⟩ => ⟨S1x256, .f32⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S1x256, .f32⟩
  | .local _ .vmem, ⟨7, _⟩ => ⟨S1x1, .f32⟩
  | .local _ .vmem, ⟨8, _⟩ => ⟨S4096x1, .f32⟩
  | .local _ .vmem, ⟨9, _⟩ => ⟨S4096x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256_S1x256 : S256.ShapeCasts S1x256
  transposes_S256x256_S256x256_1_0 : S256x256.Transposes [1, 0] S256x256
  bitsLt_bf16_f32 : FTy.bits .bf16 < FTy.bits .f32
  shapeCasts_S1_S1x1 : S1.ShapeCasts S1x1
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  broadcasts_S4096x1_S4096x256 : S4096x1.Broadcasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S262144x1.size a
  hwx0_7 : ∀ i : grid0.Coords, EltTy.bits .f32 = 32 ∨ (Rect.block (s := S262144x1) S4096x1.size (cc0_transform_7 i) (hinb0_7 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S4096x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x256 : Shape := ⟨2, ![262144, 256]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩
abbrev S262144 : Shape := ⟨1, ![262144]⟩
abbrev S262144x1 : Shape := ⟨2, ![262144, 1]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S1, .f32⟩
  | .hbm, ⟨7, _⟩ => ⟨S_, .f32⟩
  | .hbm, ⟨8, _⟩ => ⟨S262144, .f32⟩
  | .hbm, ⟨9, _⟩ => ⟨S262144x1, .f32⟩
  | .hbm, ⟨10, _⟩ => ⟨S_, .f32⟩
  | .hbm, ⟨11, _⟩ => ⟨S262144x1, .f32⟩
  | .hbm, ⟨12, _⟩ => ⟨S262144x1, .f32⟩
  | .hbm, ⟨13, _⟩ => ⟨S262144x256, .f32⟩
  | .hbm, ⟨14, _⟩ => ⟨S262144x256, .f32⟩
  | .hbm, ⟨15, _⟩ => ⟨S262144x256, .f32⟩
  | .hbm, ⟨16, _⟩ => ⟨S_, .f32⟩
  | .hbm, ⟨17, _⟩ => ⟨S262144, .f32⟩
  | .hbm, ⟨18, _⟩ => ⟨S262144x1, .f32⟩
  | .hbm, ⟨19, _⟩ => ⟨S_, .f32⟩
  | .hbm, ⟨20, _⟩ => ⟨S262144x1, .f32⟩
  | .hbm, ⟨21, _⟩ => ⟨S262144x1, .f32⟩
  | .hbm, ⟨22, _⟩ => ⟨S262144x256, .f32⟩
  | .hbm, ⟨23, _⟩ => ⟨S262144x256, .f32⟩
  | .hbm, ⟨24, _⟩ => ⟨S_, .f32⟩
  | .hbm, ⟨25, _⟩ => ⟨S262144x1, .f32⟩
  | .hbm, ⟨26, _⟩ => ⟨S262144x1, .f32⟩
  | .hbm, ⟨27, _⟩ => ⟨S262144x1, .f32⟩
  | .hbm, ⟨28, _⟩ => ⟨S262144x256, .f32⟩
  | .hbm, ⟨29, _⟩ => ⟨S262144x256, .f32⟩
  | .hbm, ⟨30, _⟩ => ⟨S1x256, .f32⟩
  | .hbm, ⟨31, _⟩ => ⟨S262144x256, .f32⟩
  | .hbm, ⟨32, _⟩ => ⟨S262144x256, .f32⟩
  | .hbm, ⟨33, _⟩ => ⟨S1x256, .f32⟩
  | .hbm, ⟨34, _⟩ => ⟨S262144x256, .f32⟩
  | .hbm, ⟨35, _⟩ => ⟨S262144x256, .f32⟩
  | .hbm, ⟨36, _⟩ => ⟨S262144x256, .f32⟩
  | .hbm, ⟨37, _⟩ => ⟨S1x256, .f32⟩
  | .hbm, ⟨38, _⟩ => ⟨S262144x256, .f32⟩
  | .hbm, ⟨39, _⟩ => ⟨S262144x256, .f32⟩
  | .hbm, ⟨40, _⟩ => ⟨S262144x256, .f32⟩
  | .hbm, ⟨41, _⟩ => ⟨S262144x256, .f32⟩
  | .hbm, ⟨42, _⟩ => ⟨S_, .f32⟩
  | .hbm, ⟨43, _⟩ => ⟨S262144x256, .f32⟩
  | .hbm, ⟨44, _⟩ => ⟨S262144x256, .f32⟩
  | .hbm, ⟨45, _⟩ => ⟨S_, .f32⟩
  | .hbm, ⟨46, _⟩ => ⟨S262144x256, .f32⟩
  | .hbm, ⟨47, _⟩ => ⟨S262144x256, .f32⟩
  | .hbm, ⟨48, _⟩ => ⟨S262144x256, .f32⟩
  | .hbm, ⟨49, _⟩ => ⟨S262144x1, .f32⟩
  | .hbm, ⟨50, _⟩ => ⟨S1x1, .f32⟩
  | .hbm, ⟨51, _⟩ => ⟨S262144x1, .f32⟩
  | .hbm, ⟨52, _⟩ => ⟨S262144x1, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x256_0_1 : S262144x1.BroadcastsInDim S262144x256 (![0, 1] : Fin 2 → Fin S262144x256.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  dot_S262144x256_S256x256_S262144x256_1_1_0_0_n_n_wf : DotDims.WF S262144x256 S256x256 S262144x256 [1] [1] [0] [0] [] []
  dot_S262144x256_S1x256_S262144x1_1_1_0_0_n_n_wf : DotDims.WF S262144x256 S1x256 S262144x1 [1] [1] [0] [0] [] []

variable [Facts₀]

def dot_S262144x256_S256x256_S262144x256_1_1_0_0_n_n : DotDims S262144x256 S256x256 S262144x256 where
  lhsContracting := [1]
  rhsContracting := [1]
  lhsNonContracting := [0]
  rhsNonContracting := [0]
  lhsBatch := []
  rhsBatch := []
  wf := dot_S262144x256_S256x256_S262144x256_1_1_0_0_n_n_wf
def dot_S262144x256_S1x256_S262144x1_1_1_0_0_n_n : DotDims S262144x256 S1x256 S262144x1 where
  lhsContracting := [1]
  rhsContracting := [1]
  lhsNonContracting := [0]
  rhsNonContracting := [0]
  lhsBatch := []
  rhsBatch := []
  wf := dot_S262144x256_S1x256_S262144x1_1_1_0_0_n_n_wf

class Facts : Prop extends Facts₀ where

variable [Facts]
-- ==== Proof.RowValue.lean ====
/-
  One row of 256 features goes through three stages.  It is layer-normalised: its mean is subtracted, the
  centred row is scaled by the reciprocal square root of its variance plus a small constant, then by a
  per-feature gain, and a per-feature shift is added.  The normalised row feeds a dense layer of 256 units
  with the activation x · σ(x).  The 256 activations are combined linearly into ONE number, the row's value.
  This module states that map on the extended reals, one row at a time, with the two float constants (the row
  length 256 the sums are divided by, and the constant under the square root) kept as the bit patterns both
  programs carry, so neither is ever evaluated.  The array-level statement is `valueArray`: entry (r, 0) of
  the result is the value of row r of the feature matrix.
-/
import Idealize.ShloMosaic.Lib.ValueIdx
import Idealize.ShloMosaic.PureOps.Ideal

noncomputable section

open scoped BigOperators

namespace Cert.RowValue

open Idealize.ShloMosaic Idealize.ShloMosaic.ValueIdx

/-- The row length, 256, as the float both programs divide the row sums by. -/
def len : EReal := Ideal.ofBits .f32 0x43800000#32

/-- The constant added to the variance under the reciprocal square root. -/
def eps : EReal := Ideal.ofBits .f32 0x3727C5AC#32

/-- The mean of a row: its sum over the row length. -/
def mean (r : Fin 256 → EReal) : EReal := Ideal.div (∑ k : Fin 256, r k) len

/-- The row with its mean subtracted. -/
def centred (r : Fin 256 → EReal) (k : Fin 256) : EReal := r k - mean r

/-- The variance of a row: the mean of the squares of the centred row. -/
def variance (r : Fin 256 → EReal) : EReal := Ideal.div (∑ k : Fin 256, centred r k * centred r k) len

/-- The reciprocal standard deviation, the constant added under the root. -/
def invStd (r : Fin 256 → EReal) : EReal := Ideal.rsqrt (variance r + eps)

/-- The layer-normalised row: centred, scaled by the reciprocal standard deviation and the gain γ, shifted by β. -/
def normed (r γ β : Fin 256 → EReal) (k : Fin 256) : EReal := centred r k * invStd r * γ k + β k

/-- Unit o of the dense layer before its activation: the normalised row against row o of the weights, plus the bias. -/
def preact (r γ β : Fin 256 → EReal) (w : Fin 256 → Fin 256 → EReal) (b : Fin 256 → EReal) (o : Fin 256) : EReal :=
  (∑ k : Fin 256, normed r γ β k * w o k) + b o

/-- The activation x · σ(x). -/
def silu (x : EReal) : EReal := x * Ideal.logistic x

/-- The weighted sum of the 256 activations, before the head's bias. -/
def headSum (r γ β : Fin 256 → EReal) (w : Fin 256 → Fin 256 → EReal) (b v : Fin 256 → EReal) : EReal :=
  ∑ o : Fin 256, silu (preact r γ β w b o) * v o

/-- The row's value: the head's weighted sum plus its bias. -/
def value (r γ β : Fin 256 → EReal) (w : Fin 256 → Fin 256 → EReal) (b v : Fin 256 → EReal) (c : EReal) : EReal :=
  headSum r γ β w b v + c

/-- The whole result: entry (r, 0) is the value of row r of the feature matrix `X`, for the gain `g`, the shift `s`,
    the dense layer's weights `W` (unit o's weights are row o) and bias `b`, the head's weights `V` (one row) and bias `c`. -/
def valueArray (X : (⟨2, ![262144, 256]⟩ : Shape).Idx → EReal) (g s : (⟨1, ![256]⟩ : Shape).Idx → EReal)
    (W : (⟨2, ![256, 256]⟩ : Shape).Idx → EReal) (b : (⟨1, ![256]⟩ : Shape).Idx → EReal)
    (V : (⟨2, ![1, 256]⟩ : Shape).Idx → EReal) (c : (⟨1, ![1]⟩ : Shape).Idx → EReal) :
    (⟨2, ![262144, 1]⟩ : Shape).Idx → EReal := fun i =>
  value (fun k => X (ix2 (i 0) k)) (fun k => g (ix1 k)) (fun k => s (ix1 k)) (fun o k => W (ix2 o k))
    (fun o => b (ix1 o)) (fun o => V (ix2 (0 : Fin 1) o)) (c (ix1 (0 : Fin 1)))

end Cert.RowValue

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibColSum.lean ====
/-
  Row sums kept as a column, read at an entry (a general lemma: nothing here depends on a program).

  A column [A, 1] broadcast to B columns holds at (p, q) the column's entry p.  The sums along the rows of an [A, K]
  matrix, laid out as a column [A, 1], hold at (p, 0) the sum over k < K of the matrix at (p, k): the form a kernel
  gives a sum over the last axis that keeps that axis with extent one.  The accumulator fact is stated as the
  equation of two zero words, the form in which a printed reduction carries it.
-/
import proofs.«123124_j22557168239500_1_alg».proof.Proof.LibLayoutCol
import proofs.«123124_j22557168239500_1_alg».proof.Proof.LibAxisSum
import Idealize.ShloMosaic.Lib.ValueIdx
import Idealize.ShloMosaic.Lib.Pipeline.Value
import Idealize.ShloMosaic.PureOps.Ideal.Laws

noncomputable section

open scoped BigOperators

namespace Cert.Lib.ColSum

open Idealize.ShloMosaic Idealize.ShloMosaic.ValueIdx

/-- A column [A, 1] broadcast to B columns, at (p, q), is the column at p. -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

/-- The sums along the rows of a matrix, laid out as a column: at (p, 0) the sum of row p. -/
theorem rowSumCol_apply {A K : Nat} (src : FVec Ideal ⟨2, ![A, K]⟩ .f32)
    (h : (⟨2, ![A, K]⟩ : Shape).Reduces [1] ⟨1, ![A]⟩) (hφ : FKind.Formats .f32) (hacc : (0x00000000#32 : BitVec 32) = 0x00000000#32)
    (hc : (⟨1, ![A]⟩ : Shape).ShapeCasts ⟨2, ![A, 1]⟩) (p : Fin A) (z : Fin 1) :
    shapeCast ⟨2, ![A, 1]⟩ (multiReduction .add [1] ⟨1, ![A]⟩ src 0x00000000#32 h hφ hacc) hc (ix2 p z)
      = ∑ k : Fin K, (src (ix2 p k) : EReal) := by
  exact (Cert.Lib.LayoutCol.colCast_apply _ hc p z).trans (Cert.Lib.AxisSum.rowSum_apply src 0x00000000#32 h hφ hacc p)

end Cert.Lib.ColSum

end
-- ==== Proof.LibColToRow.lean ====
/-
  A column laid out again as a row and repeated down the rows, read at an entry (a general lemma: nothing here depends
  on a program).

  A column [A, 1] and a row [1, A] hold the same A entries in the same row-major order, so the row at (0, q) is the
  column at (q, 0).  A row [1, A] broadcast to B rows holds at (p, q) the row's entry q.  Together: a column turned into
  a row and broadcast to [B, A] holds at (p, q) the column's entry q — the value that depends on the column index
  alone.  Any sizes A, B.
-/
import Idealize.ShloMosaic.Lib.ValueIdx
import Idealize.ShloMosaic.Lib.Pipeline.Value

noncomputable section

namespace Cert.Lib.ColToRow

open Idealize.ShloMosaic Idealize.ShloMosaic.ValueIdx

/-- The row [1, A] made of a column [A, 1], at (0, q), is the column at (q, 0). -/
theorem colAsRow_apply {α : Type} {A : Nat} (c : (⟨2, ![A, 1]⟩ : Shape).Idx → α)
    (h : (⟨2, ![A, 1]⟩ : Shape).ShapeCasts ⟨2, ![1, A]⟩) (z : Fin 1) (q : Fin A) :
    shapeCast ⟨2, ![1, A]⟩ c h (ix2 z q) = c (ix2 q (0 : Fin 1)) := by
  refine shapeCast_apply c h (ix2 z q) (ix2 q (0 : Fin 1)) ?_
  rw [Shape.rowMajor_val_two, Shape.rowMajor_val_two]
  obtain rfl : z = 0 := Subsingleton.elim _ _
  show q.val * 1 + 0 = 0 * A + q.val
  omega

/-- A row [1, A] broadcast to B rows, at (p, q), is the row at (0, q). -/
theorem bcastRowMat_apply {α : Type} {A B : Nat} (r : (⟨2, ![1, A]⟩ : Shape).Idx → α)
    (h : (⟨2, ![1, A]⟩ : Shape).Broadcasts ⟨2, ![B, A]⟩) (p : Fin B) (q : Fin A) :
    broadcastTo ⟨2, ![B, A]⟩ r h (ix2 p q) = r (ix2 (0 : Fin 1) q) := by
  refine broadcastTo_apply r h (ix2 p q) (ix2 (0 : Fin 1) q) ?_
  intro a
  match a with
  | ⟨0, _⟩ => simp
  | ⟨1, _⟩ =>
    show q.val = if A = 1 then 0 else q.val
    split
    · have := q.isLt; omega
    · rfl

/-- A column turned into a row and broadcast to B rows, at (p, q), is the column at (q, 0). -/
theorem colAsRowBcast_apply {α : Type} {A B : Nat} (c : (⟨2, ![A, 1]⟩ : Shape).Idx → α)
    (h1 : (⟨2, ![A, 1]⟩ : Shape).ShapeCasts ⟨2, ![1, A]⟩) (h2 : (⟨2, ![1, A]⟩ : Shape).Broadcasts ⟨2, ![B, A]⟩)
    (p : Fin B) (q : Fin A) :
    broadcastTo ⟨2, ![B, A]⟩ (shapeCast ⟨2, ![1, A]⟩ c h1) h2 (ix2 p q) = c (ix2 q (0 : Fin 1)) :=
  (bcastRowMat_apply _ h2 p q).trans (colAsRow_apply c h1 0 q)

end Cert.Lib.ColToRow

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.KernelRow.lean ====
/-
  The kernel body's arithmetic on one block of 4096 rows, read one row at a time.  The body loads the block of
  features, the gain, the shift, the dense layer's weights (already transposed, so that entry (k, o) is unit o's
  weight for feature k), its bias and the head's weights, and computes a column of 4096 numbers.  Its stages are
  named here as whole-block functions — the column of row means, the centred block, the column of reciprocal
  standard deviations, the normalised block, the block of pre-activations — and each is read at an entry as the
  corresponding scalar stage of `Cert.RowValue` applied to that row.  A lane sum laid out as a column is the sum
  over the row; a column or a one-row matrix broadcast over the block is read at its own coordinate; the product
  into a zero accumulator is the sum over the contracted index; narrowing the normalised block to the 16-bit
  format before the product changes nothing on the extended reals.
-/
import proofs.«123124_j22557168239500_1_alg».proof.Proof.Gen.KernelIdeal.Skeleton
import proofs.«123124_j22557168239500_1_alg».proof.Proof.RowValue
import proofs.«123124_j22557168239500_1_alg».proof.Proof.LibColSum
import proofs.«123124_j22557168239500_1_alg».proof.Proof.LibColToRow
import proofs.«123124_j22557168239500_1_alg».proof.Proof.LibMatmul
import Idealize.ShloMosaic.Lib.ValueIdx
import Idealize.ShloMosaic.Lib.Pipeline.Value
import Idealize.ShloMosaic.PureOps.Ideal.Laws

noncomputable section

open scoped BigOperators

namespace Cert.KernelIdeal.RowRead

open Cert.KernelIdeal Cert.KernelIdeal.Gen Idealize.ShloMosaic Idealize.ShloMosaic.ValueIdx Cert.RowValue

variable (x0 : Vec Ideal S4096x256 .f32) (x1 x2 : Vec Ideal S1x256 .f32) (x3 : Vec Ideal S256x256 .bf16)
  (x4 x5 : Vec Ideal S1x256 .f32)

/-! ## The rows and parameters the scalar stages are applied to -/

/-- Row p of the feature block. -/
abbrev row (p : Fin 4096) : Fin 256 → EReal := fun k => x0 (ix2 p k)
/-- A one-row matrix as a function of its column. -/
abbrev asRow (v : Vec Ideal S1x256 .f32) : Fin 256 → EReal := fun k => v (ix2 (0 : Fin 1) k)
/-- Unit o's weights: column o of the transposed weight block. -/
abbrev unitWeights : Fin 256 → Fin 256 → EReal := fun o k => x3 (ix2 k o)

/-! ## The body's stages as whole-block functions -/

/-- The row means, as a column. -/
def meanCol : FVec Ideal S4096x1 .f32 :=
  divf (shapeCast S4096x1 (multiReduction .add [1] S4096 x0 0x00000000#32 reduces_S4096x256_S4096 (.inl rfl) rfl) shapeCasts_S4096_S4096x1)
    (broadcast S4096x1 (Scalar.ofBits .f32 0x43800000#32))

/-- The block with each row's mean subtracted. -/
def centredBlk : FVec Ideal S4096x256 .f32 :=
  subf x0 (broadcastTo S4096x256 (meanCol x0) broadcasts_S4096x1_S4096x256)

/-- The reciprocal standard deviations, as a column. -/
def invStdCol : FVec Ideal S4096x1 .f32 :=
  rsqrt (addf (divf (shapeCast S4096x1 (multiReduction .add [1] S4096 (mulf (centredBlk x0) (centredBlk x0)) 0x00000000#32 reduces_S4096x256_S4096 (.inl rfl) rfl) shapeCasts_S4096_S4096x1)
      (broadcast S4096x1 (Scalar.ofBits .f32 0x43800000#32)))
    (broadcast S4096x1 (Scalar.ofBits .f32 0x3727C5AC#32)))

/-- The layer-normalised block. -/
def normedBlk : FVec Ideal S4096x256 .f32 :=
  addf (mulf (mulf (centredBlk x0) (broadcastTo S4096x256 (invStdCol x0) broadcasts_S4096x1_S4096x256))
      (broadcastTo S4096x256 (shapeCast S1x256 x1 shapeCasts_S1x256_S1x256) broadcasts_S1x256_S4096x256))
    (broadcastTo S4096x256 (shapeCast S1x256 x2 shapeCasts_S1x256_S1x256) broadcasts_S1x256_S4096x256)

/-- The dense layer's pre-activations. -/
def preactBlk : FVec Ideal S4096x256 .f32 :=
  addf (matmul dot_S4096x256_S256x256_S4096x256_1_0_0_1_n_n none (truncf .bf16 (normedBlk x0 x1 x2) bitsLt_bf16_f32)
      (shapeCast S256x256 x3 shapeCasts_S256x256_S256x256 : FVec Ideal S256x256 .bf16) (constant S4096x256 .f32 0x00000000#32))
    (broadcastTo S4096x256 (shapeCast S1x256 x4 shapeCasts_S1x256_S1x256) broadcasts_S1x256_S4096x256)

/-- The payload is the lane sum, laid out as a column, of the activations times the head's weights. -/
theorem pay2_eq : k0_pay2 x0 x1 x2 x3 x4 x5
    = shapeCast S4096x1 (multiReduction .add [1] S4096
        (mulf (mulf (preactBlk x0 x1 x2 x3 x4) (logistic (preactBlk x0 x1 x2 x3 x4))) (broadcastTo S4096x256 x5 broadcasts_S1x256_S4096x256))
        0x00000000#32 reduces_S4096x256_S4096 (.inl rfl) rfl) shapeCasts_S4096_S4096x1 := rfl

/-! ## Each stage at an entry -/

theorem meanCol_apply (p : Fin 4096) (z : Fin 1) : meanCol x0 (ix2 p z) = mean (row x0 p) := by
  unfold meanCol
  rw [divf_apply, Cert.Lib.ColSum.rowSumCol_apply]
  rfl

theorem centredBlk_apply (p : Fin 4096) (k : Fin 256) : centredBlk x0 (ix2 p k) = centred (row x0 p) k := by
  unfold centredBlk
  rw [subf_apply, Cert.Lib.ColSum.bcastColMat_apply, meanCol_apply]
  rfl

theorem invStdCol_apply (p : Fin 4096) (z : Fin 1) : invStdCol x0 (ix2 p z) = invStd (row x0 p) := by
  unfold invStdCol
  show Ideal.rsqrt (_ + _) = _
  rw [divf_apply, Cert.Lib.ColSum.rowSumCol_apply]
  simp only [mulf_apply, centredBlk_apply]
  rfl

theorem normedBlk_apply (p : Fin 4096) (k : Fin 256) :
    normedBlk x0 x1 x2 (ix2 p k) = normed (row x0 p) (asRow x1) (asRow x2) k := by
  unfold normedBlk
  rw [addf_apply, mulf_apply, mulf_apply, centredBlk_apply, Cert.Lib.ColSum.bcastColMat_apply, invStdCol_apply,
    shapeCast_self, shapeCast_self, Cert.Lib.ColToRow.bcastRowMat_apply, Cert.Lib.ColToRow.bcastRowMat_apply]
  rfl

theorem preactBlk_apply (p : Fin 4096) (o : Fin 256) :
    preactBlk x0 x1 x2 x3 x4 (ix2 p o) = preact (row x0 p) (asRow x1) (asRow x2) (unitWeights x3) (asRow x4) o := by
  unfold preactBlk
  rw [addf_apply, shapeCast_self, shapeCast_self, Cert.Lib.ColToRow.bcastRowMat_apply]
  refine congrArg (· + _) ?_
  refine (Cert.Lib.Matmul.matmul_zero_apply (A := 4096) (K := 256) (C := 256) (φ₁ := .bf16) (φ₂ := .bf16) none
    (truncf .bf16 (normedBlk x0 x1 x2) bitsLt_bf16_f32) (x3 : FVec Ideal S256x256 .bf16) p o).trans ?_
  refine Finset.sum_congr rfl fun k _ => ?_
  rw [truncf_apply, normedBlk_apply]

/-- The payload at row p: the head's weighted sum of that row's activations. -/
theorem pay2_apply (p : Fin 4096) (z : Fin 1) :
    k0_pay2 x0 x1 x2 x3 x4 x5 (ix2 p z)
      = headSum (row x0 p) (asRow x1) (asRow x2) (unitWeights x3) (asRow x4) (asRow x5) := by
  rw [pay2_eq, Cert.Lib.ColSum.rowSumCol_apply]
  refine Finset.sum_congr rfl fun o _ => ?_
  rw [mulf_apply, mulf_apply, Cert.Lib.ColToRow.bcastRowMat_apply]
  show _ * Ideal.logistic _ * _ = _
  rw [preactBlk_apply]
  rfl

end Cert.KernelIdeal.RowRead

end
-- ==== Proof.KernelArray.lean ====
/-
  From blocks to the whole result.  The launch cuts the 262144 rows of the feature matrix into 64 blocks of 4096 rows;
  grid point t stages block t of the features and the whole of every parameter array, and writes back block t of the
  one-column result.  Before the launch the host reshapes the gain, the shift and the dense layer's bias into one-row
  matrices and the head's bias into a one-by-one matrix, and transposes the dense layer's weights (the change of their
  float format is the identity on the extended reals); each of these is read here at an entry as the argument it came
  from.  A block row p of point t is array row 4096·t + p, so what point t writes back is block t of
  `Cert.RowValue.valueArray` of the arguments, and since every row lies in exactly the block of its quotient by 4096,
  the result array after the run is that function everywhere.
-/
import proofs.«123124_j22557168239500_1_alg».proof.Proof.KernelIdealValue
import proofs.«123124_j22557168239500_1_alg».proof.Proof.KernelRow
import proofs.«123124_j22557168239500_1_alg».proof.Proof.RowValue
import Idealize.ShloMosaic.Lib.ValueIdx
import Idealize.ShloMosaic.Lib.Pipeline.Value
import Idealize.ShloMosaic.Lib.StableHlo.Run

set_option maxRecDepth 16384

noncomputable section

namespace Cert.KernelIdeal.ArrayRead

open Cert.KernelIdeal Cert.KernelIdeal.Gen Cert.KernelIdeal.RowRead Cert.RowValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result both programs are claimed to leave: the row values of the launch contents of the seven arguments. -/
def result (c : Dev nD) : S262144x1.Idx → EReal :=
  valueArray (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## The parameter arrays as the region finds them -/

/-- A vector reshaped to one row, at (0, k), is the vector at k. -/
theorem rowCast_apply {α : Type} (v : S256.Idx → α) (h : S256.ShapeCasts S1x256) (z : Fin 1) (k : Fin 256) :
    shapeCast S1x256 v h (ix2 z k) = v (ix1 k) := by
  refine shapeCast_apply v h (ix2 z k) (ix1 k) ?_
  rw [Shape.rowMajor_val_one, Shape.rowMajor_val_two]
  show k.val = z.val * 256 + k.val
  have := z.isLt
  omega

theorem gain_entry (c : Dev nD) (k : Fin 256) :
    (V m c main_v0 : S1x256.Idx → EReal) (ix2 (0 : Fin 1) k) = m ((c : Thread nD τ).loc main_arg1) (ix1 k) := by
  have e : (V m c main_v0 : S1x256.Idx → EReal) = shapeCast S1x256 (m ((c : Thread nD τ).loc main_arg1)) shapeCasts_S256_S1x256 := by
    dsimp only [V, hostOps0]; after_results; rfl
  rw [e, rowCast_apply]

theorem shift_entry (c : Dev nD) (k : Fin 256) :
    (V m c main_v1 : S1x256.Idx → EReal) (ix2 (0 : Fin 1) k) = m ((c : Thread nD τ).loc main_arg2) (ix1 k) := by
  have e : (V m c main_v1 : S1x256.Idx → EReal) = shapeCast S1x256 (m ((c : Thread nD τ).loc main_arg2)) shapeCasts_S256_S1x256 := by
    dsimp only [V, hostOps0]; after_results; rfl
  rw [e, rowCast_apply]

theorem bias_entry (c : Dev nD) (o : Fin 256) :
    (V m c main_v4 : S1x256.Idx → EReal) (ix2 (0 : Fin 1) o) = m ((c : Thread nD τ).loc main_arg4) (ix1 o) := by
  have e : (V m c main_v4 : S1x256.Idx → EReal) = shapeCast S1x256 (m ((c : Thread nD τ).loc main_arg4)) shapeCasts_S256_S1x256 := by
    dsimp only [V, hostOps0]; after_results; rfl
  rw [e, rowCast_apply]

theorem headBias_entry (c : Dev nD) :
    (V m c main_v5 : S1x1.Idx → EReal) (ix2 (0 : Fin 1) (0 : Fin 1)) = m ((c : Thread nD τ).loc main_arg6) (ix1 (0 : Fin 1)) := by
  have e : (V m c main_v5 : S1x1.Idx → EReal) = shapeCast S1x1 (m ((c : Thread nD τ).loc main_arg6)) shapeCasts_S1_S1x1 := by
    dsimp only [V, hostOps0]; after_results; rfl
  rw [e]
  refine shapeCast_apply _ shapeCasts_S1_S1x1 (ix2 (0 : Fin 1) (0 : Fin 1)) (ix1 (0 : Fin 1)) ?_
  rw [Shape.rowMajor_val_one, Shape.rowMajor_val_two]
  rfl

/-- The staged weights at (k, o) are the dense layer's weights at (o, k). -/
theorem weights_entry (c : Dev nD) (k o : Fin 256) :
    (V m c main_v3 : S256x256.Idx → EReal) (ix2 k o) = m ((c : Thread nD τ).loc main_arg3) (ix2 o k) := by
  have e : (V m c main_v3 : S256x256.Idx → EReal)
      = truncf (F := Ideal) .bf16 (transpose S256x256 [1, 0] (m ((c : Thread nD τ).loc main_arg3) : FVec Ideal S256x256 .f32) transposes_S256x256_S256x256_1_0) bitsLt_bf16_f32 := by
    dsimp only [V, hostOps0]; after_results
  rw [e, truncf_apply]
  refine transpose_apply [1, 0] _ transposes_S256x256_S256x256_1_0 (ix2 k o) (ix2 o k) ?_
  intro b
  match b with
  | ⟨0, _⟩ => rfl
  | ⟨1, _⟩ => rfl

/-! ## The windows' blocks at a grid point, typed by their literal shapes -/

abbrev featBlk (c : Dev nD) (t : Fin cfg0.N) : Vec Ideal S4096x256 .f32 := iblk m c 0 t
abbrev gainBlk (c : Dev nD) (t : Fin cfg0.N) : Vec Ideal S1x256 .f32 := iblk m c 1 t
abbrev shiftBlk (c : Dev nD) (t : Fin cfg0.N) : Vec Ideal S1x256 .f32 := iblk m c 2 t
abbrev weightBlk (c : Dev nD) (t : Fin cfg0.N) : Vec Ideal S256x256 .bf16 := iblk m c 3 t
abbrev biasBlk (c : Dev nD) (t : Fin cfg0.N) : Vec Ideal S1x256 .f32 := iblk m c 4 t
abbrev headBlk (c : Dev nD) (t : Fin cfg0.N) : Vec Ideal S1x256 .f32 := iblk m c 5 t
abbrev headBiasBlk (c : Dev nD) (t : Fin cfg0.N) : Vec Ideal S1x1 .f32 := iblk m c 6 t

/-- The printed index maps over the 64 grid points: the feature window moves with the result window down the rows,
    which is at block t at point t; every parameter window stays at block (0, 0). -/
theorem index_facts : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 :=
  (by decide +kernel : ∀ t : Fin grid0.N, _)

/-- Row p of the feature block at point t is the array row under entry (p, z) of the result block. -/
theorem featBlk_row (c : Dev nD) (t : Fin cfg0.N) (p : Fin 4096) (z : Fin 1) :
    row (featBlk m c t) p = fun k => m ((c : Thread nD τ).loc main_arg0) (ix2 ((((cfg0.win 7).blk t).view.emb (ix2 p z)) 0) k) := by
  obtain ⟨e00, e01, -⟩ := index_facts t
  funext k
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 4096 + 1 * p.val = win0_7.index t (0 : Fin 2) * 4096 + 1 * p.val; omega
  | ⟨1, _⟩ => show win0_0.index t (1 : Fin 2) * 256 + 1 * k.val = k.val; omega

theorem gainBlk_row (c : Dev nD) (t : Fin cfg0.N) :
    asRow (gainBlk m c t) = fun k => m ((c : Thread nD τ).loc main_arg1) (ix1 k) := by
  obtain ⟨-, -, e0, e1, -⟩ := index_facts t
  funext k
  show V m c main_v0 (((cfg0.win 1).blk t).view.emb (ix2 (0 : Fin 1) k)) = _
  rw [← gain_entry m c k]
  refine congrArg (V m c main_v0) (funext fun a => Fin.ext ?_)
  match a with
  | ⟨0, _⟩ => show win0_1.index t (0 : Fin 2) * 1 + 1 * 0 = 0; omega
  | ⟨1, _⟩ => show win0_1.index t (1 : Fin 2) * 256 + 1 * k.val = k.val; omega

theorem shiftBlk_row (c : Dev nD) (t : Fin cfg0.N) :
    asRow (shiftBlk m c t) = fun k => m ((c : Thread nD τ).loc main_arg2) (ix1 k) := by
  obtain ⟨-, -, -, -, e0, e1, -⟩ := index_facts t
  funext k
  show V m c main_v1 (((cfg0.win 2).blk t).view.emb (ix2 (0 : Fin 1) k)) = _
  rw [← shift_entry m c k]
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 256 + 1 * k.val = k.val; omega

theorem weightBlk_units (c : Dev nD) (t : Fin cfg0.N) :
    unitWeights (weightBlk m c t) = fun o k => m ((c : Thread nD τ).loc main_arg3) (ix2 o k) := by
  obtain ⟨-, -, -, -, -, -, e0, e1, -⟩ := index_facts t
  funext o k
  show V m c main_v3 (((cfg0.win 3).blk t).view.emb (ix2 k o)) = _
  rw [← weights_entry m c k o]
  refine congrArg (V m c main_v3) (funext fun a => Fin.ext ?_)
  match a with
  | ⟨0, _⟩ => show win0_3.index t (0 : Fin 2) * 256 + 1 * k.val = k.val; omega
  | ⟨1, _⟩ => show win0_3.index t (1 : Fin 2) * 256 + 1 * o.val = o.val; omega

theorem biasBlk_row (c : Dev nD) (t : Fin cfg0.N) :
    asRow (biasBlk m c t) = fun o => m ((c : Thread nD τ).loc main_arg4) (ix1 o) := by
  obtain ⟨-, -, -, -, -, -, -, -, e0, e1, -⟩ := index_facts t
  funext o
  show V m c main_v4 (((cfg0.win 4).blk t).view.emb (ix2 (0 : Fin 1) o)) = _
  rw [← bias_entry m c o]
  refine congrArg (V m c main_v4) (funext fun a => Fin.ext ?_)
  match a with
  | ⟨0, _⟩ => show win0_4.index t (0 : Fin 2) * 1 + 1 * 0 = 0; omega
  | ⟨1, _⟩ => show win0_4.index t (1 : Fin 2) * 256 + 1 * o.val = o.val; omega

theorem headBlk_row (c : Dev nD) (t : Fin cfg0.N) :
    asRow (headBlk m c t) = fun o => m ((c : Thread nD τ).loc main_arg5) (ix2 (0 : Fin 1) o) := by
  obtain ⟨-, -, -, -, -, -, -, -, -, -, e0, e1, -⟩ := index_facts t
  funext o
  show V m c main_arg5 (((cfg0.win 5).blk t).view.emb (ix2 (0 : Fin 1) o)) = _
  rw [V_main_arg5]
  refine congrArg (m ((c : Thread nD τ).loc main_arg5)) (funext fun a => Fin.ext ?_)
  match a with
  | ⟨0, _⟩ => show win0_5.index t (0 : Fin 2) * 1 + 1 * 0 = 0; omega
  | ⟨1, _⟩ => show win0_5.index t (1 : Fin 2) * 256 + 1 * o.val = o.val; omega

theorem headBiasBlk_entry (c : Dev nD) (t : Fin cfg0.N) :
    headBiasBlk m c t (ix2 (0 : Fin 1) (0 : Fin 1)) = m ((c : Thread nD τ).loc main_arg6) (ix1 (0 : Fin 1)) := by
  obtain ⟨-, -, -, -, -, -, -, -, -, -, -, -, e0, e1, -⟩ := index_facts t
  show V m c main_v5 (((cfg0.win 6).blk t).view.emb (ix2 (0 : Fin 1) (0 : Fin 1))) = _
  rw [← headBias_entry m c]
  refine congrArg (V m c main_v5) (funext fun a => Fin.ext ?_)
  match a with
  | ⟨0, _⟩ => show win0_6.index t (0 : Fin 2) * 1 + 1 * 0 = 0; omega
  | ⟨1, _⟩ => show win0_6.index t (1 : Fin 2) * 1 + 1 * 0 = 0; omega

/-! ## What the body leaves in the result block -/

theorem offsets_zero : (![0, 0] : Fin 2 → Nat) = fun _ => 0 := funext fun a => by fin_cases a <;> rfl

/-- Entry (p, z) of the result block, from the input blocks: the value of row p of the feature block. -/
theorem block_entry (x0 : Vec Ideal S4096x256 .f32) (x1 x2 : Vec Ideal S1x256 .f32) (x3 : Vec Ideal S256x256 .bf16)
    (x4 x5 : Vec Ideal S1x256 .f32) (x6 : Vec Ideal S1x1 .f32) (p : Fin 4096) (z : Fin 1) :
    out0_7 x0 x1 x2 x3 x4 x5 x6 (ix2 p z)
      = value (row x0 p) (asRow x1) (asRow x2) (unitWeights x3) (asRow x4) (asRow x5) (x6 (ix2 (0 : Fin 1) (0 : Fin 1))) := by
  unfold out0_7
  rw [Cert.KernelIdeal.ValueP.canon7_eq]
  simp only [View.ld_unit_zero (S := S4096x256) offsets_zero, View.ld_unit_zero (S := S1x256) offsets_zero,
    View.ld_unit_zero (S := S256x256) offsets_zero, View.ld_unit_zero (S := S1x1) offsets_zero]
  have e0 : Cert.KernelIdeal.ValueP.ix7_0 (ix2 p z) = ix2 p (0 : Fin 1) :=
    funext fun a => Fin.ext (by match a with | ⟨0, _⟩ => rfl | ⟨1, _⟩ => rfl)
  have e1 : Cert.KernelIdeal.ValueP.ix7_1 (ix2 p z) = ix2 (0 : Fin 1) (0 : Fin 1) :=
    funext fun a => Fin.ext (by match a with | ⟨0, _⟩ => rfl | ⟨1, _⟩ => rfl)
  show k0_pay2 x0 x1 x2 x3 x4 x5 (Cert.KernelIdeal.ValueP.ix7_0 (ix2 p z)) + x6 (Cert.KernelIdeal.ValueP.ix7_1 (ix2 p z)) = _
  rw [e0, e1, pay2_apply]
  rfl

/-- What point t writes back is block t of the result. -/
theorem flushed_eq (c : Dev nD) (t : Fin cfg0.N) :
    (dats m 0 c).flushed 7 t = ((cfg0.win 7).blk t).view.read (Elt Ideal) (result m c) := by
  rw [Cert.KernelIdeal.ValueP.flushed7]
  refine funext fun (y : S4096x1.Idx) => ?_
  obtain ⟨p, z, rfl⟩ : ∃ (p : Fin 4096) (z : Fin 1), y = ix2 p z := ⟨y 0, y 1, eq_ix2 y⟩
  show out0_7 (featBlk m c t) (gainBlk m c t) (shiftBlk m c t) (weightBlk m c t) (biasBlk m c t) (headBlk m c t) (headBiasBlk m c t) (ix2 p z)
    = result m c (((cfg0.win 7).blk t).view.emb (ix2 p z))
  rw [block_entry, featBlk_row m c t p z, gainBlk_row, shiftBlk_row, weightBlk_units, biasBlk_row, headBlk_row, headBiasBlk_entry]
  rfl

/-! ## The blocks cover the result array -/

/-- An entry of the result array is in point t's block iff each coordinate is in the block's range on its axis. -/
theorem mem_block (t : Fin cfg0.N) (i : S262144x1.Idx) :
    i ∈ ((cfg0.win 7).blk t).view.set ↔ ∀ a : Fin 2, win0_7.index t a * S4096x1.size a ≤ (i a).val ∧ (i a).val < win0_7.index t a * S4096x1.size a + S4096x1.size a := by
  show i ∈ ((View.whole main_v6).slice (win0_7.rect t)).set ↔ _
  rw [View.set_slice_whole, Rect.mem_set_unit]
  exact Iff.rfl

/-- Every one of the 64 row blocks is some point's. -/
theorem point_of_block : ∀ q : Fin 64, ∃ t : Fin cfg0.N, win0_7.index t = ![q.val, 0] :=
  (by decide +kernel : ∀ q : Fin 64, ∃ t : Fin grid0.N, win0_7.index t = ![q.val, 0])

/-- Row r lies in the block of its quotient by 4096. -/
theorem covered (i : S262144x1.Idx) : ∃ t : Fin cfg0.N, (cfg0.win 7).flush t = true ∧ i ∈ ((cfg0.win 7).blk t).view.set := by
  have hi0 : (i 0).val < 262144 := (i 0).isLt
  have hi1 : (i 1).val < 1 := (i 1).isLt
  obtain ⟨t, ht⟩ := point_of_block ⟨(i 0).val / 4096, by omega⟩
  have q0 : win0_7.index t (0 : Fin 2) = (i 0).val / 4096 := congrFun ht 0
  have q1 : win0_7.index t (1 : Fin 2) = 0 := congrFun ht 1
  refine ⟨t, flush0_7 t, ?_⟩
  rw [mem_block]
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 1 ≤ (i 1).val ∧ (i 1).val < win0_7.index t (1 : Fin 2) * 1 + 1; omega

/-- The result array after the run. -/
theorem final (c : Dev nD) : (dats m 0 c).arrAt 7 cfg0.N = result m c :=
  (dats m 0 c).arrAt_eq_of_cover 7 (result m c) (fun t _ => flushed_eq m c t) covered

/-- The kernel's run: every weakly fair execution ends with the result array at the row values of the arguments, the
    arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.ValueP.run_blocks m ρ)

end Cert.KernelIdeal.ArrayRead

end
-- ==== Proof.ReferenceRow.lean ====
/-
  The reference program, read one row at a time.  Its result at entry (r, 0) is composed, operation by operation, from
  row r of the feature matrix: the row sum over 256 gives the mean, the mean of the squared centred row the variance, the
  reciprocal square root of the variance plus the constant the scale; the centred row times the scale times the gain plus
  the shift is the normalised row; its products with the rows of the weight matrix, summed and shifted by the bias, are
  the pre-activations; the reference spells the activation x · σ(x) with σ(x) = 1 / (1 + e^(-x)) written out with the
  constant one, which is the logistic function's own definition on the extended reals; the activations against the head's
  one row of weights, summed and shifted by its bias, are the value.  Each stage is the scalar stage of `Cert.RowValue`
  at that row: the sums start from the float zero, which adds nothing, and every broadcast reads its operand at the
  coordinate it came from.
-/
import proofs.«123124_j22557168239500_1_alg».proof.Proof.Gen.ReferenceIdeal.Read
import proofs.«123124_j22557168239500_1_alg».proof.Proof.RowValue
import Idealize.ShloMosaic.Lib.ValueIdx
import Idealize.ShloMosaic.Lib.IdealHost
import Idealize.ShloMosaic.PureOps.Ideal.Laws

noncomputable section

open scoped BigOperators

namespace Cert.ReferenceIdeal.RowRead

open Cert.ReferenceIdeal Cert.ReferenceIdeal.Gen Cert.ReferenceIdeal.Read Idealize.ShloMosaic Idealize.ShloMosaic.ValueIdx
open Cert.RowValue

variable (X : FVec Ideal S262144x256 .f32) (g s : FVec Ideal S256 .f32) (W : FVec Ideal S256x256 .f32)
  (b : FVec Ideal S256 .f32) (V : FVec Ideal S1x256 .f32) (c : FVec Ideal S1 .f32)

/-- An index of a matrix with the given two coordinates is the pair. -/
theorem pair_of_coords {A B : Nat} (j : (⟨2, ![A, B]⟩ : Shape).Idx) (p : Fin A) (q : Fin B)
    (h0 : (j 0).val = p.val) (h1 : (j 1).val = q.val) : j = ix2 p q :=
  funext fun x => Fin.ext (by match x with | ⟨0, _⟩ => exact h0 | ⟨1, _⟩ => exact h1)

/-- An index of a vector with the given coordinate is that coordinate. -/
theorem single_of_coord {A : Nat} (j : (⟨1, ![A]⟩ : Shape).Idx) (p : Fin A) (h0 : (j 0).val = p.val) : j = ix1 p :=
  funext fun x => Fin.ext (by match x with | ⟨0, _⟩ => exact h0)

/-- Row r of the feature matrix. -/
abbrev row (r : Fin 262144) : Fin 256 → EReal := fun k => X (ix2 r k)
abbrev gain : Fin 256 → EReal := fun k => g (ix1 k)
abbrev shift : Fin 256 → EReal := fun k => s (ix1 k)
abbrev unitWeights : Fin 256 → Fin 256 → EReal := fun o k => W (ix2 o k)
abbrev bias : Fin 256 → EReal := fun o => b (ix1 o)
abbrev headWeights : Fin 256 → EReal := fun o => V (ix2 (0 : Fin 1) o)

theorem mean_at (r : Fin 262144) (z : Fin 1) : val_main_v3 (F := Ideal) X (ix2 r z) = mean (row X r) := by
  rw [val_main_v3_apply, val_main_v1_apply, val_main_v0_apply, val_main_v2_apply, val_main_cst_0_apply, val_main_cst_apply]
  have e : ∀ k, idx_main_v0 (idx_main_v1 (ix2 r z)) k = ix2 r k := fun k => pair_of_coords _ _ _ rfl rfl
  simp only [e]
  show Ideal.div (Ideal.ofBits .f32 0x00000000#32 + _) (Ideal.ofBits .f32 0x43800000#32) = _
  rw [Ideal.ofBits_zero_f32, zero_add]
  rfl

theorem centred_at (r : Fin 262144) (k : Fin 256) : val_main_v5 (F := Ideal) X (ix2 r k) = centred (row X r) k := by
  rw [val_main_v5_apply, val_main_v4_apply]
  have e : idx_main_v4 (ix2 r k) = ix2 r (0 : Fin 1) := pair_of_coords _ _ _ rfl rfl
  rw [e, mean_at]
  rfl

/-- The reference subtracts the mean a second time for the normalised row: the same centred row. -/
theorem centred_at' (r : Fin 262144) (k : Fin 256) : val_main_v12 (F := Ideal) X (ix2 r k) = centred (row X r) k := by
  rw [val_main_v12_apply, val_main_v11_apply]
  have e : idx_main_v11 (ix2 r k) = ix2 r (0 : Fin 1) := pair_of_coords _ _ _ rfl rfl
  rw [e, mean_at]
  rfl

theorem invStd_at (r : Fin 262144) (z : Fin 1) : val_main_v15 (F := Ideal) X (ix2 r z) = invStd (row X r) := by
  rw [val_main_v15_apply, val_main_v14_apply, val_main_v10_apply, val_main_v8_apply, val_main_v7_apply, val_main_v9_apply,
    val_main_v13_apply, val_main_cst_1_apply, val_main_cst_2_apply, val_main_cst_3_apply]
  have e : ∀ k, idx_main_v7 (idx_main_v8 (ix2 r z)) k = ix2 r k := fun k => pair_of_coords _ _ _ rfl rfl
  simp only [e, val_main_v6_apply, centred_at]
  show Ideal.rsqrt (Ideal.div (Ideal.ofBits .f32 0x00000000#32 + _) (Ideal.ofBits .f32 0x43800000#32) + Ideal.ofBits .f32 0x3727C5AC#32) = _
  rw [Ideal.ofBits_zero_f32, zero_add]
  rfl

theorem normed_at (r : Fin 262144) (k : Fin 256) :
    val_main_v23 (F := Ideal) X g s (ix2 r k) = normed (row X r) (gain g) (shift s) k := by
  rw [val_main_v23_apply, val_main_v20_apply, val_main_v17_apply, val_main_v16_apply, val_main_v19_apply, val_main_v18_apply,
    val_main_v22_apply, val_main_v21_apply]
  have e16 : idx_main_v16 (ix2 r k) = ix2 r (0 : Fin 1) := pair_of_coords _ _ _ rfl rfl
  have e19 : idx_main_v18 (idx_main_v19 (ix2 r k)) = ix1 k := single_of_coord _ _ rfl
  have e22 : idx_main_v21 (idx_main_v22 (ix2 r k)) = ix1 k := single_of_coord _ _ rfl
  rw [e16, e19, e22, centred_at', invStd_at]
  rfl

theorem preact_at (r : Fin 262144) (o : Fin 256) :
    val_main_v27 (F := Ideal) X g s W b (ix2 r o) = preact (row X r) (gain g) (shift s) (unitWeights W) (bias b) o := by
  rw [val_main_v27_apply, val_main_v24_apply, val_main_v26_apply, val_main_v25_apply]
  have el : ∀ k, lidx_main_v24 (ix2 r o) k = ix2 r k := fun k => pair_of_coords _ _ _ rfl rfl
  have er : ∀ k, ridx_main_v24 (ix2 r o) k = ix2 o k := fun k => pair_of_coords _ _ _ rfl rfl
  have eb : idx_main_v25 (idx_main_v26 (ix2 r o)) = ix1 o := single_of_coord _ _ rfl
  simp only [el, er, eb, normed_at]
  rfl

theorem silu_at (r : Fin 262144) (o : Fin 256) :
    val_main_v34 (F := Ideal) X g s W b (ix2 r o) = silu (preact (row X r) (gain g) (shift s) (unitWeights W) (bias b) o) := by
  rw [val_main_v34_apply, val_main_v33_apply, val_main_v32_apply, val_main_v31_apply, val_main_v30_apply, val_main_v29_apply,
    val_main_v28_apply, val_main_cst_4_apply, val_main_cst_5_apply, preact_at]
  show _ * Ideal.div (Ideal.ofBits .f32 0x3F800000#32) (Ideal.ofBits .f32 0x3F800000#32 + Ideal.exp (-_)) = _
  rw [Ideal.ofBits_one_f32]
  rfl

/-- The reference's result is the array of row values. -/
theorem result_eq : val_main_v38 (F := Ideal) X g s W b V c = valueArray X g s W b V c := by
  funext i
  obtain ⟨r, z, rfl⟩ : ∃ (r : Fin 262144) (z : Fin 1), i = ix2 r z := ⟨i 0, i 1, eq_ix2 i⟩
  obtain rfl : z = 0 := Subsingleton.elim z 0
  rw [val_main_v38_apply, val_main_v35_apply, val_main_v37_apply, val_main_v36_apply]
  have el : ∀ k, lidx_main_v35 (ix2 r (0 : Fin 1)) k = ix2 r k := fun k => pair_of_coords _ _ _ rfl rfl
  have er : ∀ k, ridx_main_v35 (ix2 r (0 : Fin 1)) k = ix2 (0 : Fin 1) k := fun k => pair_of_coords _ _ _ rfl rfl
  have ec : idx_main_v36 (idx_main_v37 (ix2 r (0 : Fin 1))) = ix1 (0 : Fin 1) := single_of_coord _ _ rfl
  simp only [el, er, ec, silu_at]
  rfl

end Cert.ReferenceIdeal.RowRead

end
-- ==== Proof.lean ====
/-
  A value head over layer-normalised features: for each of 262144 rows of 256 features, normalise the row (mean,
  variance, a small constant under the reciprocal square root, gain and shift), apply a dense layer of 256 units with the
  activation x · σ(x), and take one linear combination of the activations plus a bias.  The kernel does this block by
  block, 4096 rows at a grid point, with the dense layer's weights transposed beforehand and the product taken on
  operands narrowed to a 16-bit format; the reference does it on the whole arrays with two contractions.  On the extended
  reals the narrowing is the identity, a product into a zero accumulator and a contraction are the same sum, a lane sum
  and a host sum from zero are the same sum, and the logistic function is by definition the quotient the reference writes
  out, so both programs leave, at entry (r, 0), the value of row r as `Cert.RowValue.value` states it — the same term on
  both sides, with no algebraic law between them and no use of the inputs' finiteness.
  The three frames: the kernel's two are the launch's own run (every block inside its array, every staging buffer whole);
  the reference's is its run with the result dropped.  The idealization rewrote nothing, so there is nothing to preserve.
-/
import proofs.«123124_j22557168239500_1_alg».proof.Defs
import proofs.«123124_j22557168239500_1_alg».proof.Proof.Gen.Kernel
import proofs.«123124_j22557168239500_1_alg».proof.Proof.Gen.Kernel.Skeleton
import proofs.«123124_j22557168239500_1_alg».proof.Proof.Gen.Kernel.Launch
import proofs.«123124_j22557168239500_1_alg».proof.Proof.Gen.Kernel.Points
import proofs.«123124_j22557168239500_1_alg».proof.Proof.Gen.Kernel.Frame
import proofs.«123124_j22557168239500_1_alg».proof.Proof.Gen.KernelIdeal
import proofs.«123124_j22557168239500_1_alg».proof.Proof.Gen.KernelIdeal.Skeleton
import proofs.«123124_j22557168239500_1_alg».proof.Proof.Gen.KernelIdeal.Launch
import proofs.«123124_j22557168239500_1_alg».proof.Proof.Gen.KernelIdeal.Points
import proofs.«123124_j22557168239500_1_alg».proof.Proof.Gen.KernelIdeal.Frame
import proofs.«123124_j22557168239500_1_alg».proof.Proof.Gen.ReferenceIdeal
import proofs.«123124_j22557168239500_1_alg».proof.Proof.Gen.Pre_finite_inputs
import proofs.«123124_j22557168239500_1_alg».proof.Proof.Gen.ReferenceIdeal.Run
import proofs.«123124_j22557168239500_1_alg».proof.Proof.Gen.ReferenceIdeal.Read
import proofs.«123124_j22557168239500_1_alg».proof.Proof.KernelArray
import proofs.«123124_j22557168239500_1_alg».proof.Proof.ReferenceRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments, both programs end with the result array at the row values of
    those arguments: the kernel's blocks assemble to it, and the reference's composed term is it entry by entry. -/
theorem algebraic : Cert.algebraic_KernelIdeal_ReferenceIdeal := by
  intro m ρ m' ρ' _ hagree
  refine ⟨fun c => Cert.KernelIdeal.ArrayRead.result m c, Cert.KernelIdeal.ArrayRead.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.RowRead.result_eq]
  obtain ⟨h0, h1, h2, h3, h4, h5, h6⟩ := hagree c
  rw [h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
